-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S32 : Shape := ⟨1, ![32]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S262144x32 .f32) (main_arg1 : FVec F S32 .f32) (main_arg2 : FVec F S32 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S262144x32 : Shape := ⟨2, ![262144, 32]⟩
abbrev S32 : Shape := ⟨1, ![32]⟩
abbrev S65536x128 : Shape := ⟨2, ![65536, 128]⟩
abbrev S1x32 : Shape := ⟨2, ![1, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S2x128 : Shape := ⟨2, ![2, 128]⟩
abbrev S128 : Shape := ⟨1, ![128]⟩
abbrev S128x1 : Shape := ⟨2, ![128, 1]⟩
abbrev S_ : Shape := ⟨0, ![]⟩
abbrev S128x128 : Shape := ⟨2, ![128, 128]⟩
abbrev S2048x128 : Shape := ⟨2, ![2048, 128]⟩

abbrev nBuf : Space → Nat
  | .hbm => 62
  | .vmem => 6
  | .smem => 0
  | _ => 0

abbrev bufTy : (tb : Table) → Fin (tcTables nBuf tb) → BufTy
  | .hbm, ⟨0, _⟩ => ⟨S262144x32, .f32⟩
  | .hbm, ⟨1, _⟩ => ⟨S32, .f32⟩
  | .hbm, ⟨2, _⟩ => ⟨S32, .f32⟩
  | .hbm, ⟨3, _⟩ => ⟨S65536x128, .f32⟩
  | .hbm, ⟨4, _⟩ => ⟨S1x32, .f32⟩
  | .hbm, ⟨5, _⟩ => ⟨S1x1x1x32, .f32⟩
  | .hbm, ⟨6, _⟩ => ⟨S1x1x4x32, .f32⟩
  | .hbm, ⟨7, _⟩ => ⟨S1x128, .f32⟩
  | .hbm, ⟨8, _⟩ => ⟨S1x32, .f32⟩
  | .hbm, ⟨9, _⟩ => ⟨S1x1x1x32, .f32⟩
  | .hbm, ⟨10, _⟩ => ⟨S1x1x4x32, .f32⟩
  | .hbm, ⟨11, _⟩ => ⟨S1x128, .f32⟩
  | .hbm, ⟨12, _⟩ => ⟨S2x128, .f32⟩
  | .hbm, ⟨13, _⟩ => ⟨S128, .i32⟩
  | .hbm, ⟨14, _⟩ => ⟨S128x1, .i32⟩
  | .hbm, ⟨15, _⟩ => ⟨S_, .i32⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S128x1, .i32⟩
  | .hbm, ⟨20, _⟩ => ⟨S_, .i32⟩
  | .hbm, ⟨21, _⟩ => ⟨S128x1, .i32⟩
  | .hbm, ⟨22, _⟩ => ⟨S128x1, .i1⟩
  | .hbm, ⟨23, _⟩ => ⟨S128x1, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i1⟩
  | .hbm, ⟨28, _⟩ => ⟨S128x1, .i1⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x1, .i32⟩
  | .hbm, ⟨33, _⟩ => ⟨S1x128, .i32⟩
  | .hbm, ⟨34, _⟩ => ⟨S_, .i32⟩
  | .hbm, ⟨35, _⟩ => ⟨S_, .i32⟩
  | .hbm, ⟨36, _⟩ => ⟨S1x128, .i32⟩
  | .hbm, ⟨37, _⟩ => ⟨S1x128, .i32⟩
  | .hbm, ⟨38, _⟩ => ⟨S1x128, .i32⟩
  | .hbm, ⟨39, _⟩ => ⟨S_, .i32⟩
  | .hbm, ⟨40, _⟩ => ⟨S1x128, .i32⟩
  | .hbm, ⟨41, _⟩ => ⟨S1x128, .i1⟩
  | .hbm, ⟨42, _⟩ => ⟨S1x128, .i32⟩
  | .hbm, ⟨43, _⟩ => ⟨S1x128, .i32⟩
  | .hbm, ⟨44, _⟩ => ⟨S_, .i32⟩
  | .hbm, ⟨45, _⟩ => ⟨S1x128, .i32⟩
  | .hbm, ⟨46, _⟩ => ⟨S1x128, .i1⟩
  | .hbm, ⟨47, _⟩ => ⟨S1x128, .i1⟩
  | .hbm, ⟨48, _⟩ => ⟨S_, .i32⟩
  | .hbm, ⟨49, _⟩ => ⟨S1x128, .i32⟩
  | .hbm, ⟨50, _⟩ => ⟨S1x128, .i32⟩
  | .hbm, ⟨51, _⟩ => ⟨S1x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S_, .f32⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S65536x128, .f32⟩
  | .hbm, ⟨61, _⟩ => ⟨S262144x32, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2x128, .f32⟩
  | .local _ .vmem, ⟨4, _⟩ => ⟨S2048x128, .f32⟩
  | .local _ .vmem, ⟨5, _⟩ => ⟨S2048x128, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144x32_S65536x128 : S262144x32.ShapeCasts S65536x128
  shapeCasts_S32_S1x32 : S32.ShapeCasts S1x32
  shapeCasts_S1x32_S1x1x1x32 : S1x32.ShapeCasts S1x1x1x32
  bcast_S1x1x1x32_S1x1x4x32_0_1_2_3 : S1x1x1x32.BroadcastsInDim S1x1x4x32 (![0, 1, 2, 3] : Fin 4 → Fin S1x1x4x32.rank)
  shapeCasts_S1x1x4x32_S1x128 : S1x1x4x32.ShapeCasts S1x128
  concatenates_S1x128_S1x128_S2x128_d0 : Shape.Concatenates [S1x128, S1x128] S2x128 0
  bcast_S128_S128x1_0 : S128.BroadcastsInDim S128x1 (![0] : Fin 1 → Fin S128x1.rank)
  bcast_S_S128x1 : S_.BroadcastsInDim S128x1 (![] : Fin 0 → Fin S128x1.rank)
  bcast_S128_S1x128_1 : S128.BroadcastsInDim S1x128 (![1] : Fin 1 → Fin S1x128.rank)
  bcast_S_S1x128 : S_.BroadcastsInDim S1x128 (![] : Fin 0 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2x128_S1x128_0_0 : ∀ a, (![0, 0] : Fin 2 → Nat) a + S1x128.size a ≤ S2x128.size a
  h_S1x128 : 0 < S1x128.numel
  shapeCasts_S1x128_S1x128 : S1x128.ShapeCasts S1x128
  broadcasts_S1x128_S2048x128 : S1x128.Broadcasts S2048x128
  inb_S2x128_S1x128_1_0 : ∀ a, (![1, 0] : Fin 2 → Nat) a + S1x128.size a ≤ S2x128.size a
  shapeCasts_S65536x128_S262144x32 : S65536x128.ShapeCasts S262144x32
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x32 : Shape := ⟨2, ![262144, 32]⟩
abbrev S32 : Shape := ⟨1, ![32]⟩
abbrev S65536x128 : Shape := ⟨2, ![65536, 128]⟩
abbrev S1x32 : Shape := ⟨2, ![1, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S128 : Shape := ⟨1, ![128]⟩
abbrev S128x1 : Shape := ⟨2, ![128, 1]⟩
abbrev S_ : Shape := ⟨0, ![]⟩
abbrev S128x128 : Shape := ⟨2, ![128, 128]⟩
abbrev S4096x128 : Shape := ⟨2, ![4096, 128]⟩

abbrev nBuf : Space → Nat
  | .hbm => 57
  | .vmem => 7
  | .smem => 0
  | _ => 0

abbrev bufTy : (tb : Table) → Fin (tcTables nBuf tb) → BufTy
  | .hbm, ⟨0, _⟩ => ⟨S262144x32, .f32⟩
  | .hbm, ⟨1, _⟩ => ⟨S32, .f32⟩
  | .hbm, ⟨2, _⟩ => ⟨S32, .f32⟩
  | .hbm, ⟨3, _⟩ => ⟨S65536x128, .f32⟩
  | .hbm, ⟨4, _⟩ => ⟨S1x32, .f32⟩
  | .hbm, ⟨5, _⟩ => ⟨S1x1x1x32, .f32⟩
  | .hbm, ⟨6, _⟩ => ⟨S1x1x4x32, .f32⟩
  | .hbm, ⟨7, _⟩ => ⟨S1x128, .f32⟩
  | .hbm, ⟨8, _⟩ => ⟨S1x32, .f32⟩
  | .hbm, ⟨9, _⟩ => ⟨S1x1x1x32, .f32⟩
  | .hbm, ⟨10, _⟩ => ⟨S1x1x4x32, .f32⟩
  | .hbm, ⟨11, _⟩ => ⟨S1x128, .f32⟩
  | .hbm, ⟨12, _⟩ => ⟨S128, .i32⟩
  | .hbm, ⟨13, _⟩ => ⟨S128x1, .i32⟩
  | .hbm, ⟨14, _⟩ => ⟨S_, .i32⟩
  | .hbm, ⟨15, _⟩ => ⟨S_, .i32⟩
  | .hbm, ⟨16, _⟩ => ⟨S128x1, .i32⟩
  | .hbm, ⟨17, _⟩ => ⟨S128x1, .i32⟩
  | .hbm, ⟨18, _⟩ => ⟨S128x1, .i32⟩
  | .hbm, ⟨19, _⟩ => ⟨S_, .i32⟩
  | .hbm, ⟨20, _⟩ => ⟨S128x1, .i32⟩
  | .hbm, ⟨21, _⟩ => ⟨S128x1, .i1⟩
  | .hbm, ⟨22, _⟩ => ⟨S128x1, .i32⟩
  | .hbm, ⟨23, _⟩ => ⟨S128x1, .i32⟩
  | .hbm, ⟨24, _⟩ => ⟨S_, .i32⟩
  | .hbm, ⟨25, _⟩ => ⟨S128x1, .i32⟩
  | .hbm, ⟨26, _⟩ => ⟨S128x1, .i1⟩
  | .hbm, ⟨27, _⟩ => ⟨S128x1, .i1⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x1, .i32⟩
  | .hbm, ⟨32, _⟩ => ⟨S1x128, .i32⟩
  | .hbm, ⟨33, _⟩ => ⟨S_, .i32⟩
  | .hbm, ⟨34, _⟩ => ⟨S_, .i32⟩
  | .hbm, ⟨35, _⟩ => ⟨S1x128, .i32⟩
  | .hbm, ⟨36, _⟩ => ⟨S1x128, .i32⟩
  | .hbm, ⟨37, _⟩ => ⟨S1x128, .i32⟩
  | .hbm, ⟨38, _⟩ => ⟨S_, .i32⟩
  | .hbm, ⟨39, _⟩ => ⟨S1x128, .i32⟩
  | .hbm, ⟨40, _⟩ => ⟨S1x128, .i1⟩
  | .hbm, ⟨41, _⟩ => ⟨S1x128, .i32⟩
  | .hbm, ⟨42, _⟩ => ⟨S1x128, .i32⟩
  | .hbm, ⟨43, _⟩ => ⟨S_, .i32⟩
  | .hbm, ⟨44, _⟩ => ⟨S1x128, .i32⟩
  | .hbm, ⟨45, _⟩ => ⟨S1x128, .i1⟩
  | .hbm, ⟨46, _⟩ => ⟨S1x128, .i1⟩
  | .hbm, ⟨47, _⟩ => ⟨S_, .i32⟩
  | .hbm, ⟨48, _⟩ => ⟨S1x128, .i32⟩
  | .hbm, ⟨49, _⟩ => ⟨S1x128, .i32⟩
  | .hbm, ⟨50, _⟩ => ⟨S1x128, .i32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S128x128, .f32⟩
  | .hbm, ⟨55, _⟩ => ⟨S65536x128, .f32⟩
  | .hbm, ⟨56, _⟩ => ⟨S262144x32, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S4096x128, .f32⟩
  | .local _ .vmem, ⟨6, _⟩ => ⟨S4096x128, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v11 : Ref sig .tc := ⟨.hbm, 31, rfl⟩
abbrev main_v12 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S262144x32_S65536x128 : S262144x32.ShapeCasts S65536x128
  shapeCasts_S32_S1x32 : S32.ShapeCasts S1x32
  shapeCasts_S1x32_S1x1x1x32 : S1x32.ShapeCasts S1x1x1x32
  bcast_S1x1x1x32_S1x1x4x32_0_1_2_3 : S1x1x1x32.BroadcastsInDim S1x1x4x32 (![0, 1, 2, 3] : Fin 4 → Fin S1x1x4x32.rank)
  shapeCasts_S1x1x4x32_S1x128 : S1x1x4x32.ShapeCasts S1x128
  bcast_S128_S128x1_0 : S128.BroadcastsInDim S128x1 (![0] : Fin 1 → Fin S128x1.rank)
  bcast_S_S128x1 : S_.BroadcastsInDim S128x1 (![] : Fin 0 → Fin S128x1.rank)
  bcast_S128_S1x128_1 : S128.BroadcastsInDim S1x128 (![1] : Fin 1 → Fin S1x128.rank)
  bcast_S_S1x128 : S_.BroadcastsInDim S1x128 (![] : Fin 0 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S65536x128_S262144x32 : S65536x128.ShapeCasts S262144x32
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S65536x128.size a
  hwx0_4 : ∀ i : grid0.Coords, EltTy.bits .f32 = 32 ∨ (Rect.block (s := S65536x128) S4096x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  Channel-wise layer normalisation of lane-packed rows, as mathematics over the extended reals.

  A packed row holds 128 numbers: four points of 32 channels each.  A 128 × 128 membership table says which lanes
  belong to one point.  The mean of lane `j`'s point is the weighted sum of the row against column `j` of the table,
  and there are two ways to put the factor 1/32 in: into the table's entries (each entry 1/32 or 0), or after the
  sum over a table of ones and zeros.  The two agree on every extended real because multiplying by the real number
  1/32 distributes over a finite sum.  The normalised value is then scaled and shifted per lane; the two programs
  associate that product differently, which the extended reals do not mind.
-/
import Idealize.ShloMosaic.PureOps.Ideal
import Idealize.ShloMosaic.PureOps.Ideal.Laws
import Idealize.ShloMosaic.Lib.ValueIdx

noncomputable section

open scoped BigOperators

namespace Cert.PackedNorm

open Idealize.ShloMosaic Idealize.ShloMosaic.ValueIdx

/-- The scale `1/32`, as the binary32 word both programs spell. -/
def inv32 : EReal := Ideal.ofBits .f32 0x3D000000#32
/-- The variance offset, as the binary32 word both programs spell. -/
def eps : EReal := Ideal.ofBits .f32 0x358637BD#32

/-- The word denotes the real number 1/32. -/
theorem inv32_eq : inv32 = ((1 / 32 : ℝ) : EReal) := by
  unfold inv32; simp [Ideal.ofBits, Ideal.ieee, -EReal.coe_mul]; norm_num

theorem inv32_nonneg : 0 ≤ inv32 := by
  rw [inv32_eq]; exact_mod_cast (by norm_num : (0 : ℝ) ≤ 1 / 32)

theorem inv32_ne_top : inv32 ≠ ⊤ := by
  rw [inv32_eq]; exact EReal.coe_ne_top _

/-- A membership bit as a weight one or zero. -/
def unitW (b : BitVec 1) : EReal := ((b.toNat : ℝ) : EReal)
/-- A membership bit as a weight 1/32 or zero. -/
def scaledW (b : BitVec 1) : EReal := Scalar.select b inv32 (Ideal.ofBits .f32 0x00000000#32)

/-- The scaled weight is the unit weight times 1/32. -/
theorem scaledW_eq (b : BitVec 1) : scaledW b = unitW b * inv32 := by
  unfold scaledW unitW
  by_cases h : b = 1#1
  · subst h; rw [select_one]; simp
  · have h0 := eq_zero_of_ne_one h; subst h0; rw [select_zero, Ideal.ofBits_zero_f32]; simp

/-- Multiplying by 1/32 distributes over a finite sum of extended reals. -/
theorem sum_mul_inv32 {ι : Type} (s : Finset ι) (f : ι → EReal) : (∑ k ∈ s, f k) * inv32 = ∑ k ∈ s, f k * inv32 := by
  classical
  induction s using Finset.induction_on with
  | empty => simp
  | insert a s ha ih =>
    rw [Finset.sum_insert ha, Finset.sum_insert ha, EReal.right_distrib_of_nonneg_of_ne_top inv32_nonneg inv32_ne_top, ih]

/-- A row weighted against column `j` of a table of weights. -/
def wsum (x : Fin 128 → EReal) (W : Fin 128 → Fin 128 → EReal) (j : Fin 128) : EReal := ∑ k, x k * W k j

/-- The same with the factor 1/32 applied after the sum. -/
def wmean (x : Fin 128 → EReal) (U : Fin 128 → Fin 128 → EReal) (j : Fin 128) : EReal := wsum x U j * inv32

/-- One packed row normalised, the table's entries carrying the factor 1/32, the lane scale folded into the
    reciprocal root. -/
def rowScaled (x : Fin 128 → EReal) (W : Fin 128 → Fin 128 → EReal) (g b : Fin 128 → EReal) (j : Fin 128) : EReal :=
  (x j - wsum x W j) * (Ideal.rsqrt (wsum (fun k => (x k - wsum x W k) * (x k - wsum x W k)) W j + eps) * g j) + b j

/-- One packed row normalised, the factor 1/32 applied after each sum, the lane scale applied last. -/
def rowUnit (x : Fin 128 → EReal) (U : Fin 128 → Fin 128 → EReal) (g b : Fin 128 → EReal) (j : Fin 128) : EReal :=
  (x j - wmean x U j) * Ideal.rsqrt (wmean (fun k => (x k - wmean x U k) * (x k - wmean x U k)) U j + eps) * g j + b j

/-- A weighted sum against scaled weights is the mean against unit weights. -/
theorem wsum_scaled (x : Fin 128 → EReal) (M : Fin 128 → Fin 128 → BitVec 1) :
    wsum x (fun k j => scaledW (M k j)) = wmean x (fun k j => unitW (M k j)) := by
  funext j
  unfold wmean wsum
  rw [sum_mul_inv32]
  refine Finset.sum_congr rfl fun k _ => ?_
  show x k * scaledW (M k j) = x k * unitW (M k j) * inv32
  rw [scaledW_eq, mul_assoc]

/-- The two arrangements of a normalised row agree. -/
theorem rowScaled_eq (x : Fin 128 → EReal) (M : Fin 128 → Fin 128 → BitVec 1) (g b : Fin 128 → EReal) :
    rowScaled x (fun k j => scaledW (M k j)) g b = rowUnit x (fun k j => unitW (M k j)) g b := by
  funext j
  unfold rowScaled rowUnit
  rw [wsum_scaled, wsum_scaled, mul_assoc]

/-- The whole packed array normalised row by row: entry `(r, j)` is row `r` normalised at lane `j`, with the
    membership table `M`, the lane scales `gt` and the lane shifts `bt`. -/
def G (xp : (⟨2, ![65536, 128]⟩ : Shape).Idx → EReal) (M : (⟨2, ![128, 128]⟩ : Shape).Idx → BitVec 1)
    (gt bt : (⟨2, ![1, 128]⟩ : Shape).Idx → EReal) : (⟨2, ![65536, 128]⟩ : Shape).Idx → EReal :=
  fun i => rowUnit (fun k => xp (ix2 (i 0) k)) (fun k j => unitW (M (ix2 k j))) (fun j => gt (ix2 (0 : Fin 1) j))
    (fun j => bt (ix2 (0 : Fin 1) j)) (i 1)

end Cert.PackedNorm

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.KernelValue.lean ====
/-
  What the lane-packed kernel leaves in its result array, read at the extended reals.

  The packed feature array has 65536 rows of 128 lanes and is processed in 32 blocks of 2048 rows.  At a point the body
  reads its block of rows, the whole 128 × 128 weight table and the two-row table of lane scales and shifts, and writes
  one block of rows.  Each written entry depends on its own row only: the two matrix products contract over the lanes
  of that row.  So every block is a restriction of ONE function of the arrays, and since the blocks tile the rows, the
  array ends holding that function; the program's result is its reshape.
-/
import proofs.«131071_g2000604220289415_pallasbulk_744_1_alg».proof.Proof.Gen.KernelIdeal.Frame
import proofs.«131071_g2000604220289415_pallasbulk_744_1_alg».proof.Proof.Spec
import proofs.«131071_g2000604220289415_pallasbulk_744_1_alg».proof.Proof.LibDot
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Packed

open Idealize.ShloMosaic Idealize.ShloMosaic.TcCoe Idealize.ShloMosaic.ValueIdx Idealize.SL.Sem
open Cert.KernelIdeal Cert.KernelIdeal.Gen Cert.PackedNorm

theorem hz : (![0, 0] : Fin 2 → Nat) = fun _ => 0 := funext fun a => by fin_cases a <;> rfl

/-! ## One entry of the body's stored value -/

/-- A product of a block of rows with the weight table into the zero accumulator, at entry `(a, b)`: row `a`
    weighted against column `b`. -/
theorem mm_apply (l : FVec Ideal S2048x128 .f32) (w : FVec Ideal S128x128 .f32) (a : Fin 2048) (b : Fin 128) :
    matmul dot_S2048x128_S128x128_S2048x128_1_0_0_1_n_n none l w (constant S2048x128 .f32 0x00000000#32) (ix2 a b)
      = wsum (fun k => l (ix2 a k)) (fun k j => w (ix2 k j)) b :=
  Cert.LibDot.matmul_zero_apply _ rfl rfl rfl rfl rfl rfl none l w a b

/-- The stored value at row `p`, lane `q` is row `p` normalised at lane `q` with the loaded table as weights. -/
theorem pay_apply (v0 : Vec Ideal S2048x128 .f32) (v2 : Vec Ideal S128x128 .f32) (v11 v16 : Vec Ideal S1x128 .f32)
    (p : Fin 2048) (q : Fin 128) :
    k0_pay1 v0 v2 v11 v16 (ix2 p q)
      = rowScaled (fun k => v0 (ix2 p k)) (fun k j => v2 (ix2 k j)) (fun j => v11 (ix2 (0 : Fin 1) j))
          (fun j => v16 (ix2 (0 : Fin 1) j)) q := by
  unfold k0_pay1 rowScaled
  simp only [shapeCast_self, addf_apply, mulf_apply, subf_apply, rsqrt, broadcast_apply, mm_apply, broadcastTo_1b_ab_apply]
  rfl

/-- The first row of the two-row table, loaded. -/
theorem ld_row0 (x2 : Vec Ideal S2x128 .f32) (j : Fin 128) : View.ld x2 r0_2 (ix2 (0 : Fin 1) j) = x2 (ix2 (0 : Fin 2) j) := by
  show x2 _ = x2 _
  congr 1
  funext a
  apply Fin.ext
  match a with
  | ⟨0, _⟩ => rfl
  | ⟨1, _⟩ => show 0 + 1 * j.val = j.val; omega

/-- The second row of the two-row table, loaded. -/
theorem ld_row1 (x2 : Vec Ideal S2x128 .f32) (j : Fin 128) : View.ld x2 r0_3 (ix2 (0 : Fin 1) j) = x2 (ix2 (1 : Fin 2) j) := by
  show x2 _ = x2 _
  congr 1
  funext a
  apply Fin.ext
  match a with
  | ⟨0, _⟩ => rfl
  | ⟨1, _⟩ => show 0 + 1 * j.val = j.val; omega

/-- The stored value at a block entry, when the block of rows is rows of an array `X` (its row at `y` being row
    `r` of `X`) and the two tables are the arrays `W` and `GB`. -/
theorem point_eq (x0 : Vec Ideal S2048x128 .f32) (x1 : Vec Ideal S128x128 .f32) (x2 : Vec Ideal S2x128 .f32)
    (X : S65536x128.Idx → EReal) (W : S128x128.Idx → EReal) (GB : S2x128.Idx → EReal) (y : S2048x128.Idx) (r : Fin 65536)
    (h0 : ∀ k : Fin 128, x0 (ix2 (y 0) k) = X (ix2 r k)) (h1 : ∀ k j : Fin 128, x1 (ix2 k j) = W (ix2 k j))
    (h2 : ∀ (a : Fin 2) (j : Fin 128), x2 (ix2 a j) = GB (ix2 a j)) :
    k0_pay1 x0 x1 (View.ld x2 r0_2) (View.ld x2 r0_3) y
      = rowScaled (fun k => X (ix2 r k)) (fun k j => W (ix2 k j)) (fun j => GB (ix2 (0 : Fin 2) j))
          (fun j => GB (ix2 (1 : Fin 2) j)) (y 1) := by
  have e := pay_apply x0 x1 (View.ld x2 r0_2) (View.ld x2 r0_3) (y 0) (y 1)
  have hy : k0_pay1 x0 x1 (View.ld x2 r0_2) (View.ld x2 r0_3) y
      = k0_pay1 x0 x1 (View.ld x2 r0_2) (View.ld x2 r0_3) (ix2 (y 0) (y 1)) := congrArg _ (eq_ix2 y)
  refine (hy.trans e).trans ?_
  have f0 : (fun k : Fin 128 => x0 (ix2 (y 0) k)) = fun k => X (ix2 r k) := funext h0
  have f1 : (fun k j : Fin 128 => x1 (ix2 k j)) = fun k j => W (ix2 k j) := funext fun k => funext fun j => h1 k j
  have g0 : (fun j : Fin 128 => View.ld x2 r0_2 (ix2 (0 : Fin 1) j)) = fun j => GB (ix2 (0 : Fin 2) j) :=
    funext fun j => (ld_row0 x2 j).trans (h2 0 j)
  have g1 : (fun j : Fin 128 => View.ld x2 r0_3 (ix2 (0 : Fin 1) j)) = fun j => GB (ix2 (1 : Fin 2) j) :=
    funext fun j => (ld_row1 x2 j).trans (h2 1 j)
  exact congrFun (congr (congr (congr (congrArg rowScaled f0) f1) g0) g1) (y 1)

/-! ## The array after the run -/

variable (m : (ℓ : Loc nD τ sig) → Buf (Elt Ideal) ℓ) (ρ : Dev nD → PrngReg)

/-- The packed features as the region finds them. -/
abbrev xarr (c : Dev nD) : S65536x128.Idx → EReal := V m c main_v0
/-- The weight table as the region finds it. -/
abbrev warr (c : Dev nD) : S128x128.Idx → EReal := V m c main_v18
/-- The lane scales (row 0) and shifts (row 1) as the region finds them. -/
abbrev gbarr (c : Dev nD) : S2x128.Idx → EReal := V m c main_v9

/-- The packed result: entry `(r, j)` is row `r` of the packed features normalised at lane `j`. -/
def GK (c : Dev nD) : S65536x128.Idx → EReal := fun i =>
  rowScaled (fun k => xarr m c (ix2 (i 0) k)) (fun k j => warr m c (ix2 k j)) (fun j => gbarr m c (ix2 (0 : Fin 2) j))
    (fun j => gbarr m c (ix2 (1 : Fin 2) j)) (i 1)

/-- The printed block indices over the grid: the features' and the result's blocks move together down the rows, every
    other index is zero. -/
theorem idx_facts : ∀ t : Fin cfg0.N, win0_0.index t (0 : Fin 2) = win0_3.index t (0 : Fin 2) ∧ win0_0.index t (1 : Fin 2) = 0
    ∧ win0_3.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) ≤ 31 :=
  (by decide +kernel : ∀ t : Fin grid0.N, _)

/-- Every block of rows is some point's. -/
theorem idx_onto : ∀ q : Fin 32, ∃ t : Fin cfg0.N, win0_3.index t = ![q.val, 0] :=
  (by decide +kernel : ∀ q : Fin 32, ∃ t : Fin grid0.N, win0_3.index t = ![q.val, 0])

/-- What point `t` writes back is block `t` of the packed result. -/
theorem flushed_eq (c : Dev nD) (t : Fin cfg0.N) :
    (dats m 0 c).flushed 3 t = ((cfg0.win 3).blk t).view.read (Elt Ideal) (GK m c) := by
  show (cfg0.win 3).cut (grid0.coords t) ((dats m 0 c).after 3 t) = _
  rw [after0_3]
  unfold out0_3
  rw [View.canon_unit_zero hz]
  simp only [View.ld_unit_zero (S := S2048x128) hz, View.ld_unit_zero (S := S128x128) hz]
  obtain ⟨e0, e1, e2, e3, e4, e5, e6, e7⟩ := idx_facts t
  funext y
  show k0_pay1 (iblk m c 0 t) (iblk m c 1 t) (View.ld (iblk m c 2 t) r0_2) (View.ld (iblk m c 2 t) r0_3) y
    = GK m c (((cfg0.win 3).blk t).view.emb y)
  have hy1 : (((cfg0.win 3).blk t).view.emb y) 1 = y 1 :=
    Fin.ext (by show win0_3.index t (1 : Fin 2) * 128 + 1 * (y 1).val = (y 1).val; omega)
  unfold GK
  rw [hy1]
  refine point_eq (iblk m c 0 t) (iblk m c 1 t) (iblk m c 2 t) (xarr m c) (warr m c) (gbarr m c) y
    ((((cfg0.win 3).blk t).view.emb y) 0) ?_ ?_ ?_
  · intro k
    show xarr m c (((cfg0.win 0).blk t).view.emb (ix2 (y 0) k)) = _
    congr 1; funext a; apply Fin.ext
    match a with
    | ⟨0, _⟩ => show win0_0.index t (0 : Fin 2) * 2048 + 1 * (y 0).val = win0_3.index t (0 : Fin 2) * 2048 + 1 * (y 0).val; omega
    | ⟨1, _⟩ => show win0_0.index t (1 : Fin 2) * 128 + 1 * k.val = k.val; omega
  · intro k j
    show warr m c (((cfg0.win 1).blk t).view.emb (ix2 k j)) = _
    congr 1; funext a; apply Fin.ext
    match a with
    | ⟨0, _⟩ => show win0_1.index t (0 : Fin 2) * 128 + 1 * k.val = k.val; omega
    | ⟨1, _⟩ => show win0_1.index t (1 : Fin 2) * 128 + 1 * j.val = j.val; omega
  · intro a j
    show gbarr m c (((cfg0.win 2).blk t).view.emb (ix2 a j)) = _
    congr 1; funext b; apply Fin.ext
    match b with
    | ⟨0, _⟩ => show win0_2.index t (0 : Fin 2) * 2 + 1 * a.val = a.val; omega
    | ⟨1, _⟩ => show win0_2.index t (1 : Fin 2) * 128 + 1 * j.val = j.val; omega

/-- An entry of the array is in point `t`'s block iff each coordinate is in the block's range. -/
theorem mem_blk (t : Fin cfg0.N) (i : S65536x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v19).slice (win0_3.rect t)).set ↔ _
  rw [View.set_slice_whole, Rect.mem_set_unit]
  exact Iff.rfl

/-- Every entry lies in some point's block: row `r` in block `r / 2048`. -/
theorem cover (i : S65536x128.Idx) :
    ∃ t : Fin cfg0.N, (cfg0.win 3).flush t = true ∧ i ∈ ((cfg0.win 3).blk t).view.set := by
  have hi0 : (i 0).val < 65536 := (i 0).isLt
  have hi1 : (i 1).val < 128 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The result array after the run is the packed result. -/
theorem final (c : Dev nD) : (dats m 0 c).arrAt 3 cfg0.N = GK m c :=
  (dats m 0 c).arrAt_eq_of_cover 3 (GK m c) (fun t _ => flushed_eq m c t) (cover)

/-! ## The program's result -/

/-- The reshape after the region reads the packed result. -/
theorem result_eq (c : Dev nD) : Pipeline.afterTail₀ cfgs (dats m) 0 (V0 m) [hostOps1] c main_v20
    = shapeCast S262144x32 (GK m c) shapeCasts_S65536x128_S262144x32 := by
  unfold Pipeline.afterTail₀
  show StableHlo.after hostOps1 _ (Proc.devRef .tc main_v20) = _
  after_results
  have hw : Pipeline.withArrays (cfgs 0).spec c (V0 m c) (fun w => (dats m 0 c).arrAt w (cfgs 0).N)
      (Proc.devRef .tc main_v19) = GK m c :=
    (Pipeline.withArrays_arr spec0 launch0.win.arr_inj c _ _ 3).trans (final m c)
  rw [hw]
  rfl

/-- The program's run, read: the result holds the reshape of the packed result, the arguments are kept. -/
theorem run : θ_run defs (onTc (τ := τ) (main (F := Ideal))) ⟨m, fun _ => 0, ρ⟩ (fun r => ∀ c : Dev nD,
      r.2.mem ((c.tc : Thread nD τ).loc main_v20) = shapeCast S262144x32 (GK m c) shapeCasts_S65536x128_S262144x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Packed

end
-- ==== Proof.ReferenceValue.lean ====
/-
  What the reference program leaves in its result array, read at the extended reals.

  The reference runs the same lane-packed layer normalisation in 16 blocks of 4096 rows, with a membership table of
  ones and zeros and the factor 1/32 applied after each weighted sum; the lane scales and the lane shifts come as two
  one-row arrays.  Each written entry depends on its own row only, so every block is a restriction of ONE function of
  the arrays; the blocks tile the rows, the array ends holding that function, and the program's result is its reshape.
-/
import proofs.«131071_g2000604220289415_pallasbulk_744_1_alg».proof.Proof.Gen.ReferenceIdeal.Frame
import proofs.«131071_g2000604220289415_pallasbulk_744_1_alg».proof.Proof.Spec
import proofs.«131071_g2000604220289415_pallasbulk_744_1_alg».proof.Proof.LibDot
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.ReferenceIdeal.Packed

open Idealize.ShloMosaic Idealize.ShloMosaic.TcCoe Idealize.ShloMosaic.ValueIdx Idealize.SL.Sem
open Cert.ReferenceIdeal Cert.ReferenceIdeal.Gen Cert.PackedNorm

theorem hz : (![0, 0] : Fin 2 → Nat) = fun _ => 0 := funext fun a => by fin_cases a <;> rfl

/-! ## One entry of the body's stored value -/

/-- A product of a block of rows with the membership table into the zero accumulator, at entry `(a, b)`: row `a`
    weighted against column `b`. -/
theorem mm_apply (l : FVec Ideal S4096x128 .f32) (w : FVec Ideal S128x128 .f32) (a : Fin 4096) (b : Fin 128) :
    matmul dot_S4096x128_S128x128_S4096x128_1_0_0_1_n_n (some .fp32) l w (constant S4096x128 .f32 0x00000000#32) (ix2 a b)
      = wsum (fun k => l (ix2 a k)) (fun k j => w (ix2 k j)) b :=
  Cert.LibDot.matmul_zero_apply _ rfl rfl rfl rfl rfl rfl (some .fp32) l w a b

/-- The stored value at row `p`, lane `q` is row `p` normalised at lane `q` with the loaded table as unit weights. -/
theorem pay_apply (v0 : Vec Ideal S4096x128 .f32) (v2 : Vec Ideal S128x128 .f32) (v16 v18 : Vec Ideal S1x128 .f32)
    (p : Fin 4096) (q : Fin 128) :
    k0_pay1 v0 v2 v16 v18 (ix2 p q)
      = rowUnit (fun k => v0 (ix2 p k)) (fun k j => v2 (ix2 k j)) (fun j => v16 (ix2 (0 : Fin 1) j))
          (fun j => v18 (ix2 (0 : Fin 1) j)) q := by
  unfold k0_pay1 rowUnit wmean
  simp only [shapeCast_self, addf_apply, mulf_apply, subf_apply, rsqrt, broadcast_apply, mm_apply, broadcastTo_1b_ab_apply]
  rfl

/-- The stored value at a block entry, when the block of rows is rows of an array `X` (its row at `y` being row
    `r` of `X`), the table is the array `W` and the two one-row arrays are `G` and `B`. -/
theorem point_eq (x0 : Vec Ideal S4096x128 .f32) (x1 x2 : Vec Ideal S1x128 .f32) (x3 : Vec Ideal S128x128 .f32)
    (X : S65536x128.Idx → EReal) (W : S128x128.Idx → EReal) (G B : S1x128.Idx → EReal) (y : S4096x128.Idx) (r : Fin 65536)
    (h0 : ∀ k : Fin 128, x0 (ix2 (y 0) k) = X (ix2 r k)) (h1 : ∀ j : Fin 128, x1 (ix2 (0 : Fin 1) j) = G (ix2 (0 : Fin 1) j))
    (h2 : ∀ j : Fin 128, x2 (ix2 (0 : Fin 1) j) = B (ix2 (0 : Fin 1) j)) (h3 : ∀ k j : Fin 128, x3 (ix2 k j) = W (ix2 k j)) :
    k0_pay1 x0 x3 x1 x2 y
      = rowUnit (fun k => X (ix2 r k)) (fun k j => W (ix2 k j)) (fun j => G (ix2 (0 : Fin 1) j))
          (fun j => B (ix2 (0 : Fin 1) j)) (y 1) := by
  have e := pay_apply x0 x3 x1 x2 (y 0) (y 1)
  have hy : k0_pay1 x0 x3 x1 x2 y = k0_pay1 x0 x3 x1 x2 (ix2 (y 0) (y 1)) := congrArg _ (eq_ix2 y)
  refine (hy.trans e).trans ?_
  simp only [h0, h1, h2, h3]

/-! ## The array after the run -/

variable (m : (ℓ : Loc nD τ sig) → Buf (Elt Ideal) ℓ) (ρ : Dev nD → PrngReg)

/-- The packed features as the region finds them. -/
abbrev xarr (c : Dev nD) : S65536x128.Idx → EReal := V m c main_v0
/-- The lane scales as the region finds them. -/
abbrev garr (c : Dev nD) : S1x128.Idx → EReal := V m c main_v4
/-- The lane shifts as the region finds them. -/
abbrev barr (c : Dev nD) : S1x128.Idx → EReal := V m c main_v8
/-- The membership table of ones and zeros as the region finds it. -/
abbrev uarr (c : Dev nD) : S128x128.Idx → EReal := V m c main_v17

/-- The packed result: entry `(r, j)` is row `r` of the packed features normalised at lane `j`. -/
def GR (c : Dev nD) : S65536x128.Idx → EReal := fun i =>
  rowUnit (fun k => xarr m c (ix2 (i 0) k)) (fun k j => uarr m c (ix2 k j)) (fun j => garr m c (ix2 (0 : Fin 1) j))
    (fun j => barr m c (ix2 (0 : Fin 1) j)) (i 1)

/-- The printed block indices over the grid: the features' and the result's blocks move together down the rows, every
    other index is zero. -/
theorem idx_facts : ∀ t : Fin cfg0.N, win0_0.index t (0 : Fin 2) = win0_4.index t (0 : Fin 2) ∧ win0_0.index t (1 : Fin 2) = 0
    ∧ win0_4.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 ∧ win0_4.index t (0 : Fin 2) ≤ 15 :=
  (by decide +kernel : ∀ t : Fin grid0.N, _)

/-- Every block of rows is some point's. -/
theorem idx_onto : ∀ q : Fin 16, ∃ t : Fin cfg0.N, win0_4.index t = ![q.val, 0] :=
  (by decide +kernel : ∀ q : Fin 16, ∃ t : Fin grid0.N, win0_4.index t = ![q.val, 0])

/-- The features' block at a point, read at a row, is the packed features at the row the result's block has there. -/
theorem blk_x (c : Dev nD) (t : Fin cfg0.N) (y : S4096x128.Idx) (k : Fin 128) :
    iblk m c 0 t (ix2 (y 0) k) = xarr m c (ix2 ((((cfg0.win 4).blk t).view.emb y) 0) k) := by
  obtain ⟨e0, e1, e2, e3, e4, e5, e6, e7, e8, e9⟩ := idx_facts t
  show xarr m c (((cfg0.win 0).blk t).view.emb (ix2 (y 0) k)) = _
  congr 1; funext a; apply Fin.ext
  match a with
  | ⟨0, _⟩ => show win0_0.index t (0 : Fin 2) * 4096 + 1 * (y 0).val = win0_4.index t (0 : Fin 2) * 4096 + 1 * (y 0).val; omega
  | ⟨1, _⟩ => show win0_0.index t (1 : Fin 2) * 128 + 1 * k.val = k.val; omega

/-- The scales' block at every point is the whole one-row array. -/
theorem blk_g (c : Dev nD) (t : Fin cfg0.N) (j : Fin 128) :
    iblk m c 1 t (ix2 (0 : Fin 1) j) = garr m c (ix2 (0 : Fin 1) j) := by
  obtain ⟨e0, e1, e2, e3, e4, e5, e6, e7, e8, e9⟩ := idx_facts t
  show garr m c (((cfg0.win 1).blk t).view.emb (ix2 (0 : Fin 1) j)) = _
  congr 1; funext a; apply Fin.ext
  match a with
  | ⟨0, _⟩ => show win0_1.index t (0 : Fin 2) * 1 + 1 * 0 = 0; omega
  | ⟨1, _⟩ => show win0_1.index t (1 : Fin 2) * 128 + 1 * j.val = j.val; omega

/-- The shifts' block at every point is the whole one-row array. -/
theorem blk_b (c : Dev nD) (t : Fin cfg0.N) (j : Fin 128) :
    iblk m c 2 t (ix2 (0 : Fin 1) j) = barr m c (ix2 (0 : Fin 1) j) := by
  obtain ⟨e0, e1, e2, e3, e4, e5, e6, e7, e8, e9⟩ := idx_facts t
  show barr m c (((cfg0.win 2).blk t).view.emb (ix2 (0 : Fin 1) j)) = _
  congr 1; funext a; apply Fin.ext
  match a with
  | ⟨0, _⟩ => show win0_2.index t (0 : Fin 2) * 1 + 1 * 0 = 0; omega
  | ⟨1, _⟩ => show win0_2.index t (1 : Fin 2) * 128 + 1 * j.val = j.val; omega

/-- The table's block at every point is the whole table. -/
theorem blk_u (c : Dev nD) (t : Fin cfg0.N) (k j : Fin 128) :
    iblk m c 3 t (ix2 k j) = uarr m c (ix2 k j) := by
  obtain ⟨e0, e1, e2, e3, e4, e5, e6, e7, e8, e9⟩ := idx_facts t
  show uarr m c (((cfg0.win 3).blk t).view.emb (ix2 k j)) = _
  congr 1; funext a; apply Fin.ext
  match a with
  | ⟨0, _⟩ => show win0_3.index t (0 : Fin 2) * 128 + 1 * k.val = k.val; omega
  | ⟨1, _⟩ => show win0_3.index t (1 : Fin 2) * 128 + 1 * j.val = j.val; omega

/-- What point `t` writes back is block `t` of the packed result. -/
theorem flushed_eq (c : Dev nD) (t : Fin cfg0.N) :
    (dats m 0 c).flushed 4 t = ((cfg0.win 4).blk t).view.read (Elt Ideal) (GR m c) := by
  show (cfg0.win 4).cut (grid0.coords t) ((dats m 0 c).after 4 t) = _
  rw [after0_4]
  unfold out0_4
  rw [View.canon_unit_zero hz]
  simp only [View.ld_unit_zero (S := S4096x128) hz, View.ld_unit_zero (S := S128x128) hz, View.ld_unit_zero (S := S1x128) hz]
  obtain ⟨e0, e1, e2, e3, e4, e5, e6, e7, e8, e9⟩ := idx_facts t
  funext y
  show k0_pay1 (iblk m c 0 t) (iblk m c 3 t) (iblk m c 1 t) (iblk m c 2 t) y
    = GR m c (((cfg0.win 4).blk t).view.emb y)
  have hy1 : (((cfg0.win 4).blk t).view.emb y) 1 = y 1 :=
    Fin.ext (by show win0_4.index t (1 : Fin 2) * 128 + 1 * (y 1).val = (y 1).val; omega)
  unfold GR
  rw [hy1]
  exact point_eq (iblk m c 0 t) (iblk m c 1 t) (iblk m c 2 t) (iblk m c 3 t) (xarr m c) (uarr m c) (garr m c) (barr m c) y
    ((((cfg0.win 4).blk t).view.emb y) 0) (blk_x m c t y) (blk_g m c t) (blk_b m c t) (blk_u m c t)

/-- An entry of the array is in point `t`'s block iff each coordinate is in the block's range. -/
theorem mem_blk (t : Fin cfg0.N) (i : S65536x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v18).slice (win0_4.rect t)).set ↔ _
  rw [View.set_slice_whole, Rect.mem_set_unit]
  exact Iff.rfl

/-- Every entry lies in some point's block: row `r` in block `r / 4096`. -/
theorem cover (i : S65536x128.Idx) :
    ∃ t : Fin cfg0.N, (cfg0.win 4).flush t = true ∧ i ∈ ((cfg0.win 4).blk t).view.set := by
  have hi0 : (i 0).val < 65536 := (i 0).isLt
  have hi1 : (i 1).val < 128 := (i 1).isLt
  obtain ⟨t, ht⟩ := idx_onto ⟨(i 0).val / 4096, by omega⟩
  have q0 : win0_4.index t (0 : Fin 2) = (i 0).val / 4096 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-- The result array after the run is the packed result. -/
theorem final (c : Dev nD) : (dats m 0 c).arrAt 4 cfg0.N = GR m c :=
  (dats m 0 c).arrAt_eq_of_cover 4 (GR m c) (fun t _ => flushed_eq m c t) (cover)

/-! ## The program's result -/

/-- The reshape after the region reads the packed result. -/
theorem result_eq (c : Dev nD) : Pipeline.afterTail₀ cfgs (dats m) 0 (V0 m) [hostOps1] c main_v19
    = shapeCast S262144x32 (GR m c) shapeCasts_S65536x128_S262144x32 := by
  unfold Pipeline.afterTail₀
  show StableHlo.after hostOps1 _ (Proc.devRef .tc main_v19) = _
  after_results
  have hw : Pipeline.withArrays (cfgs 0).spec c (V0 m c) (fun w => (dats m 0 c).arrAt w (cfgs 0).N)
      (Proc.devRef .tc main_v18) = GR m c :=
    (Pipeline.withArrays_arr spec0 launch0.win.arr_inj c _ _ 4).trans (final m c)
  rw [hw]
  rfl

/-- The program's run, read: the result holds the reshape of the packed result, the arguments are kept. -/
theorem run : θ_run defs (onTc (τ := τ) (main (F := Ideal))) ⟨m, fun _ => 0, ρ⟩ (fun r => ∀ c : Dev nD,
      r.2.mem ((c.tc : Thread nD τ).loc main_v19) = shapeCast S262144x32 (GR m c) shapeCasts_S65536x128_S262144x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Packed

end
-- ==== Proof.KernelHost.lean ====
/-
  The two small tables the lane-packed kernel reads, as the host lines before the region make them.

  The weight table is a selection by the membership table: 1/32 where two lanes belong to one point, zero elsewhere.
  The two-row table of lane scales and shifts is the one-row array of scales stacked on the one-row array of shifts.
-/
import proofs.«131071_g2000604220289415_pallasbulk_744_1_alg».proof.Proof.Gen.KernelIdeal.Frame
import proofs.«131071_g2000604220289415_pallasbulk_744_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HostSide

open Idealize.ShloMosaic Idealize.ShloMosaic.TcCoe Idealize.ShloMosaic.ValueIdx Idealize.SL.Sem
open Idealize.ShloMosaic.StableHlo
open Cert.KernelIdeal Cert.KernelIdeal.Gen Cert.PackedNorm

variable (m : (ℓ : Loc nD τ sig) → Buf (Elt Ideal) ℓ)

/-- The membership table as the region finds it: one bit per pair of lanes. -/
abbrev marr (c : Dev nD) : S128x128.Idx → BitVec 1 := V m c main_v17
/-- The one-row array of lane scales as the region finds it. -/
abbrev garr (c : Dev nD) : S1x128.Idx → EReal := V m c main_v4
/-- The one-row array of lane shifts as the region finds it. -/
abbrev barr (c : Dev nD) : S1x128.Idx → EReal := V m c main_v8

/-- The weight table is the selection, by the membership table, between the splat of 1/32 and the splat of zero. -/
theorem table_eq (c : Dev nD) : (V m c main_v18 : S128x128.Idx → EReal)
    = select (marr m c) (broadcastInDim S128x128 ![] bcast_S_S128x128 (constant (F := Ideal) S_ .f32 0x3D000000#32))
        (broadcastInDim S128x128 ![] bcast_S_S128x128 (constant (F := Ideal) S_ .f32 0x00000000#32)) := by
  dsimp only [marr, V, V0]
  simp only [hostOps0, hostOps0_1, hostOps0_2, hostOps0_3, hostOps0_4, hostOps0_5, List.flatten_cons, List.flatten_nil,
    List.append_nil, List.cons_append, List.nil_append]
  after_results_simp
  all_goals rfl

/-- An entry of the weight table is the scaled weight of the membership bit. -/
theorem table_apply (c : Dev nD) (k j : Fin 128) :
    (V m c main_v18 : S128x128.Idx → EReal) (ix2 k j) = scaledW (marr m c (ix2 k j)) := by
  rw [table_eq]; rfl

/-- The two-row table is the scales stacked on the shifts. -/
theorem gb_eq (c : Dev nD) : (V m c main_v9 : S2x128.Idx → EReal)
    = concatenate S2x128 0 [⟨S1x128, garr m c⟩, ⟨S1x128, barr m c⟩] concatenates_S1x128_S1x128_S2x128_d0 := by
  dsimp only [garr, barr, V, V0]
  simp only [hostOps0, hostOps0_1, hostOps0_2, hostOps0_3, hostOps0_4, hostOps0_5, List.flatten_cons, List.flatten_nil,
    List.append_nil, List.cons_append, List.nil_append]
  after_results_simp
  all_goals rfl

/-- Its first row is the scales. -/
theorem gb_row0 (c : Dev nD) (j : Fin 128) :
    (V m c main_v9 : S2x128.Idx → EReal) (ix2 (0 : Fin 2) j) = garr m c (ix2 (0 : Fin 1) j) := by
  rw [gb_eq]
  exact concatenate_pair_apply_left (0 : Fin 2) (garr m c) (barr m c) concatenates_S1x128_S1x128_S2x128_d0 (ix2 (0 : Fin 2) j) rfl
    (ix2 (0 : Fin 1) j) (fun b => by match b with | ⟨0, _⟩ => rfl | ⟨1, _⟩ => rfl)

/-- Its second row is the shifts. -/
theorem gb_row1 (c : Dev nD) (j : Fin 128) :
    (V m c main_v9 : S2x128.Idx → EReal) (ix2 (1 : Fin 2) j) = barr m c (ix2 (0 : Fin 1) j) := by
  rw [gb_eq]
  exact concatenate_pair_apply_right (0 : Fin 2) (garr m c) (barr m c) concatenates_S1x128_S1x128_S2x128_d0 (ix2 (1 : Fin 2) j) rfl rfl
    (ix2 (0 : Fin 1) j) (fun b hb => by match b with | ⟨0, _⟩ => exact absurd rfl hb | ⟨1, _⟩ => rfl) rfl

/-- The packed features are the feature argument reshaped. -/
theorem feats_eq (c : Dev nD) : (V m c main_v0 : S65536x128.Idx → EReal)
    = shapeCast S65536x128 (m ((c.tc : Thread nD τ).loc main_arg0)) shapeCasts_S262144x32_S65536x128 := by
  dsimp only [V, V0]
  simp only [hostOps0, hostOps0_1, hostOps0_2, hostOps0_3, hostOps0_4, hostOps0_5, List.flatten_cons, List.flatten_nil,
    List.append_nil, List.cons_append, List.nil_append]
  after_results_simp
  all_goals rfl

/-- The one-row array of lane scales is the scale argument repeated four times along the lanes. -/
theorem gamma_eq (c : Dev nD) : (V m c main_v4 : S1x128.Idx → EReal)
    = shapeCast S1x128 (broadcastInDim S1x1x4x32 ![0, 1, 2, 3] bcast_S1x1x1x32_S1x1x4x32_0_1_2_3
        (shapeCast S1x1x1x32 (shapeCast S1x32 (m ((c.tc : Thread nD τ).loc main_arg1)) shapeCasts_S32_S1x32)
          shapeCasts_S1x32_S1x1x1x32)) shapeCasts_S1x1x4x32_S1x128 := by
  dsimp only [V, V0]
  simp only [hostOps0, hostOps0_1, hostOps0_2, hostOps0_3, hostOps0_4, hostOps0_5, List.flatten_cons, List.flatten_nil,
    List.append_nil, List.cons_append, List.nil_append]
  after_results_simp
  all_goals rfl

/-- The one-row array of lane shifts is the shift argument repeated four times along the lanes. -/
theorem beta_eq (c : Dev nD) : (V m c main_v8 : S1x128.Idx → EReal)
    = shapeCast S1x128 (broadcastInDim S1x1x4x32 ![0, 1, 2, 3] bcast_S1x1x1x32_S1x1x4x32_0_1_2_3
        (shapeCast S1x1x1x32 (shapeCast S1x32 (m ((c.tc : Thread nD τ).loc main_arg2)) shapeCasts_S32_S1x32)
          shapeCasts_S1x32_S1x1x1x32)) shapeCasts_S1x1x4x32_S1x128 := by
  dsimp only [V, V0]
  simp only [hostOps0, hostOps0_1, hostOps0_2, hostOps0_3, hostOps0_4, hostOps0_5, List.flatten_cons, List.flatten_nil,
    List.append_nil, List.cons_append, List.nil_append]
  after_results_simp
  all_goals rfl

end Cert.KernelIdeal.HostSide

end
-- ==== Proof.ReferenceHost.lean ====
/-
  The membership table the reference's kernel reads, as the host lines before the region make it: each membership bit
  converted to the number one or zero.
-/
import proofs.«131071_g2000604220289415_pallasbulk_744_1_alg».proof.Proof.Gen.ReferenceIdeal.Frame
import proofs.«131071_g2000604220289415_pallasbulk_744_1_alg».proof.Proof.Spec
import Idealize.ShloMosaic.Lib.Pipeline.Value
import Idealize.ShloMosaic.Lib.ValueIdx
import Idealize.ShloMosaic.Lib.StableHlo.Run

set_option maxRecDepth 16384

noncomputable section

namespace Cert.ReferenceIdeal.HostSide

open Idealize.ShloMosaic Idealize.ShloMosaic.TcCoe Idealize.ShloMosaic.ValueIdx Idealize.SL.Sem
open Idealize.ShloMosaic.StableHlo
open Cert.ReferenceIdeal Cert.ReferenceIdeal.Gen Cert.PackedNorm

variable (m : (ℓ : Loc nD τ sig) → Buf (Elt Ideal) ℓ)

/-- The membership table as the region finds it: one bit per pair of lanes. -/
abbrev marr (c : Dev nD) : S128x128.Idx → BitVec 1 := V m c main_v16

/-- The table of ones and zeros is the membership table converted bit by bit. -/
theorem table_eq (c : Dev nD) : (V m c main_v17 : S128x128.Idx → EReal) = uitofp (F := Ideal) .f32 (marr m c) := by
  dsimp only [marr, V, V0]
  simp only [hostOps0, hostOps0_1, hostOps0_2, hostOps0_3, hostOps0_4, List.flatten_cons, List.flatten_nil,
    List.append_nil, List.cons_append, List.nil_append]
  after_results_simp
  all_goals rfl

/-- An entry of the table is the unit weight of the membership bit. -/
theorem table_apply (c : Dev nD) (k j : Fin 128) :
    (V m c main_v17 : S128x128.Idx → EReal) (ix2 k j) = unitW (marr m c (ix2 k j)) := by
  rw [table_eq]; rfl

/-- The packed features are the feature argument reshaped. -/
theorem feats_eq (c : Dev nD) : (V m c main_v0 : S65536x128.Idx → EReal)
    = shapeCast S65536x128 (m ((c.tc : Thread nD τ).loc main_arg0)) shapeCasts_S262144x32_S65536x128 := by
  dsimp only [V, V0]
  simp only [hostOps0, hostOps0_1, hostOps0_2, hostOps0_3, hostOps0_4, List.flatten_cons, List.flatten_nil,
    List.append_nil, List.cons_append, List.nil_append]
  after_results_simp
  all_goals rfl

/-- The one-row array of lane scales is the scale argument repeated four times along the lanes. -/
theorem gamma_eq (c : Dev nD) : (V m c main_v4 : S1x128.Idx → EReal)
    = shapeCast S1x128 (broadcastInDim S1x1x4x32 ![0, 1, 2, 3] bcast_S1x1x1x32_S1x1x4x32_0_1_2_3
        (shapeCast S1x1x1x32 (shapeCast S1x32 (m ((c.tc : Thread nD τ).loc main_arg1)) shapeCasts_S32_S1x32)
          shapeCasts_S1x32_S1x1x1x32)) shapeCasts_S1x1x4x32_S1x128 := by
  dsimp only [V, V0]
  simp only [hostOps0, hostOps0_1, hostOps0_2, hostOps0_3, hostOps0_4, List.flatten_cons, List.flatten_nil,
    List.append_nil, List.cons_append, List.nil_append]
  after_results_simp
  all_goals rfl

/-- The one-row array of lane shifts is the shift argument repeated four times along the lanes. -/
theorem beta_eq (c : Dev nD) : (V m c main_v8 : S1x128.Idx → EReal)
    = shapeCast S1x128 (broadcastInDim S1x1x4x32 ![0, 1, 2, 3] bcast_S1x1x1x32_S1x1x4x32_0_1_2_3
        (shapeCast S1x1x1x32 (shapeCast S1x32 (m ((c.tc : Thread nD τ).loc main_arg2)) shapeCasts_S32_S1x32)
          shapeCasts_S1x32_S1x1x1x32)) shapeCasts_S1x1x4x32_S1x128 := by
  dsimp only [V, V0]
  simp only [hostOps0, hostOps0_1, hostOps0_2, hostOps0_3, hostOps0_4, List.flatten_cons, List.flatten_nil,
    List.append_nil, List.cons_append, List.nil_append]
  after_results_simp
  all_goals rfl

end Cert.ReferenceIdeal.HostSide

end
-- ==== Proof.Bridge.lean ====
/-
  The two programs compute one function.

  Both reshape the features to 65536 packed rows, both build the same membership table from the lane numbers, and both
  repeat the scale and shift arguments four times along the lanes.  The kernel weights each row against a table whose
  entries are 1/32 or zero and folds the lane scale into the reciprocal root; the reference weights against ones and
  zeros, multiplies by 1/32 after each sum, and applies the lane scale last.  Row by row these are the two
  arrangements that `Cert.PackedNorm.rowScaled_eq` identifies.
-/
import proofs.«131071_g2000604220289415_pallasbulk_744_1_alg».proof.Proof.KernelValue
import proofs.«131071_g2000604220289415_pallasbulk_744_1_alg».proof.Proof.ReferenceValue
import proofs.«131071_g2000604220289415_pallasbulk_744_1_alg».proof.Proof.KernelHost
import proofs.«131071_g2000604220289415_pallasbulk_744_1_alg».proof.Proof.ReferenceHost

set_option maxRecDepth 16384

noncomputable section

namespace Cert.Proof.Bridge

open Idealize.ShloMosaic Idealize.ShloMosaic.TcCoe Idealize.ShloMosaic.ValueIdx Idealize.SL.Sem
open Idealize.ShloMosaic.StableHlo
open Cert.PackedNorm

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Both programs build the same membership table: it depends on no argument. -/
theorem mask_agree (c : Dev 1) : Cert.ReferenceIdeal.HostSide.marr m' c = Cert.KernelIdeal.HostSide.marr m c := by
  dsimp only [Cert.ReferenceIdeal.HostSide.marr, Cert.KernelIdeal.HostSide.marr, Cert.ReferenceIdeal.Gen.V,
    Cert.ReferenceIdeal.Gen.V0, Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.ReferenceIdeal.Gen.hostOps0, Cert.ReferenceIdeal.Gen.hostOps0_1, Cert.ReferenceIdeal.Gen.hostOps0_2,
    Cert.ReferenceIdeal.Gen.hostOps0_3, Cert.ReferenceIdeal.Gen.hostOps0_4, List.flatten_cons, List.flatten_nil,
    List.append_nil, List.cons_append, List.nil_append]
  after_results_simp
  all_goals rfl

/-- From feature arguments that agree, the packed features agree. -/
theorem feats_agree (c : Dev 1)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Packed.xarr m' c = Cert.KernelIdeal.Packed.xarr m c := by
  show (Cert.ReferenceIdeal.Gen.V m' c Cert.ReferenceIdeal.main_v0 : Cert.ReferenceIdeal.S65536x128.Idx → EReal)
    = (Cert.KernelIdeal.Gen.V m c Cert.KernelIdeal.main_v0 : Cert.KernelIdeal.S65536x128.Idx → EReal)
  rw [Cert.ReferenceIdeal.HostSide.feats_eq, Cert.KernelIdeal.HostSide.feats_eq, h]

/-- From scale arguments that agree, the lane scales agree. -/
theorem gamma_agree (c : Dev 1)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Packed.garr m' c = Cert.KernelIdeal.HostSide.garr m c := by
  show (Cert.ReferenceIdeal.Gen.V m' c Cert.ReferenceIdeal.main_v4 : Cert.ReferenceIdeal.S1x128.Idx → EReal)
    = (Cert.KernelIdeal.Gen.V m c Cert.KernelIdeal.main_v4 : Cert.KernelIdeal.S1x128.Idx → EReal)
  rw [Cert.ReferenceIdeal.HostSide.gamma_eq, Cert.KernelIdeal.HostSide.gamma_eq, h]

/-- From shift arguments that agree, the lane shifts agree. -/
theorem beta_agree (c : Dev 1)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Packed.barr m' c = Cert.KernelIdeal.HostSide.barr m c := by
  show (Cert.ReferenceIdeal.Gen.V m' c Cert.ReferenceIdeal.main_v8 : Cert.ReferenceIdeal.S1x128.Idx → EReal)
    = (Cert.KernelIdeal.Gen.V m c Cert.KernelIdeal.main_v8 : Cert.KernelIdeal.S1x128.Idx → EReal)
  rw [Cert.ReferenceIdeal.HostSide.beta_eq, Cert.KernelIdeal.HostSide.beta_eq, h]

/-- From arguments that agree, the two packed results are one array. -/
theorem G_agree (c : Dev 1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Packed.GR m' c = Cert.KernelIdeal.Packed.GK m c := by
  funext i
  -- the row, the membership bits, the lane scales and the lane shifts, in the kernel's names
  let X : Fin 128 → EReal := fun k => Cert.KernelIdeal.Packed.xarr m c (ix2 (i 0) k)
  let M : Fin 128 → Fin 128 → BitVec 1 := fun k j => Cert.KernelIdeal.HostSide.marr m c (ix2 k j)
  let Gf : Fin 128 → EReal := fun j => Cert.KernelIdeal.Packed.gbarr m c (ix2 (0 : Fin 2) j)
  let Bf : Fin 128 → EReal := fun j => Cert.KernelIdeal.Packed.gbarr m c (ix2 (1 : Fin 2) j)
  have hX : (fun k : Fin 128 => Cert.ReferenceIdeal.Packed.xarr m' c (ix2 (i 0) k)) = X :=
    funext fun k => congrFun (feats_agree m m' c h0) (ix2 (i 0) k)
  have hU : (fun k j : Fin 128 => Cert.ReferenceIdeal.Packed.uarr m' c (ix2 k j)) = fun k j => unitW (M k j) :=
    funext fun k => funext fun j => (Cert.ReferenceIdeal.HostSide.table_apply m' c k j).trans
      (congrArg unitW (congrFun (mask_agree m m' c) (ix2 k j)))
  have hG : (fun j : Fin 128 => Cert.ReferenceIdeal.Packed.garr m' c (ix2 (0 : Fin 1) j)) = Gf :=
    funext fun j => (congrFun (gamma_agree m m' c h1) (ix2 (0 : Fin 1) j)).trans (Cert.KernelIdeal.HostSide.gb_row0 m c j).symm
  have hB : (fun j : Fin 128 => Cert.ReferenceIdeal.Packed.barr m' c (ix2 (0 : Fin 1) j)) = Bf :=
    funext fun j => (congrFun (beta_agree m m' c h2) (ix2 (0 : Fin 1) j)).trans (Cert.KernelIdeal.HostSide.gb_row1 m c j).symm
  have hW : (fun k j : Fin 128 => Cert.KernelIdeal.Packed.warr m c (ix2 k j)) = fun k j => scaledW (M k j) :=
    funext fun k => funext fun j => Cert.KernelIdeal.HostSide.table_apply m c k j
  calc Cert.ReferenceIdeal.Packed.GR m' c i
      = rowUnit X (fun k j => unitW (M k j)) Gf Bf (i 1) :=
        congrFun (congr (congr (congr (congrArg rowUnit hX) hU) hG) hB) (i 1)
    _ = rowScaled X (fun k j => scaledW (M k j)) Gf Bf (i 1) := (congrFun (rowScaled_eq X M Gf Bf) (i 1)).symm
    _ = Cert.KernelIdeal.Packed.GK m c i := congrFun (congrArg (fun W => rowScaled X W Gf Bf) hW.symm) (i 1)

end Cert.Proof.Bridge

end
-- ==== Proof.lean ====
/-
  Channel-wise layer normalisation over 32 channels, computed on lane-packed rows (four points per 128-lane row) by a
  kernel against a reference that is itself a kernel over larger blocks.

  The three frames are the generated ones.  The idealisation rewrote nothing, so there is nothing to preserve.  For the
  equivalence over the extended reals: each program's result array is read off its run as one function of the argument
  arrays, row by row (Proof/KernelValue.lean, Proof/ReferenceValue.lean); the small tables both programs build on the
  host are read in Proof/KernelHost.lean and Proof/ReferenceHost.lean; and Proof/Bridge.lean shows the two functions
  equal, by the law that multiplying by 1/32 distributes over a finite sum of extended reals (Proof/Spec.lean).
-/
import proofs.«131071_g2000604220289415_pallasbulk_744_1_alg».proof.Defs
import proofs.«131071_g2000604220289415_pallasbulk_744_1_alg».proof.Proof.Gen.Kernel
import proofs.«131071_g2000604220289415_pallasbulk_744_1_alg».proof.Proof.Gen.Kernel.Skeleton
import proofs.«131071_g2000604220289415_pallasbulk_744_1_alg».proof.Proof.Gen.Kernel.Launch
import proofs.«131071_g2000604220289415_pallasbulk_744_1_alg».proof.Proof.Gen.Kernel.Points
import proofs.«131071_g2000604220289415_pallasbulk_744_1_alg».proof.Proof.Gen.Kernel.Frame
import proofs.«131071_g2000604220289415_pallasbulk_744_1_alg».proof.Proof.Gen.KernelIdeal
import proofs.«131071_g2000604220289415_pallasbulk_744_1_alg».proof.Proof.Gen.KernelIdeal.Skeleton
import proofs.«131071_g2000604220289415_pallasbulk_744_1_alg».proof.Proof.Gen.KernelIdeal.Launch
import proofs.«131071_g2000604220289415_pallasbulk_744_1_alg».proof.Proof.Gen.KernelIdeal.Points
import proofs.«131071_g2000604220289415_pallasbulk_744_1_alg».proof.Proof.Gen.KernelIdeal.Frame
import proofs.«131071_g2000604220289415_pallasbulk_744_1_alg».proof.Proof.Gen.ReferenceIdeal
import proofs.«131071_g2000604220289415_pallasbulk_744_1_alg».proof.Proof.Gen.ReferenceIdeal.Skeleton
import proofs.«131071_g2000604220289415_pallasbulk_744_1_alg».proof.Proof.Gen.ReferenceIdeal.Launch
import proofs.«131071_g2000604220289415_pallasbulk_744_1_alg».proof.Proof.Gen.ReferenceIdeal.Points
import proofs.«131071_g2000604220289415_pallasbulk_744_1_alg».proof.Proof.Gen.ReferenceIdeal.Frame
import proofs.«131071_g2000604220289415_pallasbulk_744_1_alg».proof.Proof.Gen.Pre_finite_inputs
import proofs.«131071_g2000604220289415_pallasbulk_744_1_alg».proof.Proof.Bridge
import Idealize.ShloMosaic.Adequacy
import Idealize.ShloMosaic.Init

noncomputable section

namespace Cert.Proof

open Idealize.ShloMosaic Idealize.SL.Sem

/-- From memories that agree on the three arguments both programs end with the reshape of one packed array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S262144x32 (Cert.KernelIdeal.Packed.GK m c)
    Cert.KernelIdeal.Facts₀.shapeCasts_S65536x128_S262144x32, Cert.KernelIdeal.Packed.run m ρ, ?_⟩
  refine (θ_run Cert.ReferenceIdeal.defs _ _).mono (fun _ h c => ⟨(h c).1.trans ?_, (h c).2⟩)
    (Cert.ReferenceIdeal.Packed.run m' ρ')
  rw [Cert.Proof.Bridge.G_agree m m' c (hagree c).1 (hagree c).2.1 (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
